-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S20000x128 : Shape := ⟨2, ![20000, 128]⟩
abbrev S5000x128 : Shape := ⟨2, ![5000, 128]⟩

abbrev nBuf : Space → Nat
  | .hbm => 7
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .bf16⟩
  | .hbm, ⟨5, _⟩ => ⟨S1x128, .f32⟩
  | .hbm, ⟨6, _⟩ => ⟨S100000x128, .f32⟩
  | .local _ .vmem, ⟨0, _⟩ => ⟨S20000x128, .f32⟩
  | .local _ .vmem, ⟨1, _⟩ => ⟨S20000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![5, 4], ![false, false]⟩

def k0_off1 (i : grid0.Coords) : Fin 2 → Nat :=
  let arg1 : BitVec 32 := BitVec.ofNat 32 (i 1).val
  let c5000_i32 : BitVec 32 := 5000#32
  let v0 : BitVec 32 := Scalar.muli arg1 c5000_i32
  let v1 : Index := Scalar.indexCast v0
  let c0 : Index := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S128x128_S128x128_1_0 : S128x128.Transposes [1, 0] S128x128
  bitsLt_bf16_f32 : FTy.bits .bf16 < FTy.bits .f32
  shapeCasts_S128_S1x128 : S128.ShapeCasts S1x128
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  dot_S5000x128_S128x128_S5000x128_1_0_0_1_n_n_wf : DotDims.WF S5000x128 S128x128 S5000x128 [1] [0] [0] [1] [] []
  hrank0 : 0 < grid0.rank
  k0_off1_inb : ∀ i : grid0.Coords, ∀ a, (k0_off1 i) a + S5000x128.size a ≤ S20000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S100000x128, .f32⟩
  | .hbm, ⟨5, _⟩ => ⟨S1x128, .f32⟩
  | .hbm, ⟨6, _⟩ => ⟨S100000x128, .f32⟩
  | .hbm, ⟨7, _⟩ => ⟨S100000x128, .f32⟩
  | .hbm, ⟨8, _⟩ => ⟨S_, .f32⟩
  | .hbm, ⟨9, _⟩ => ⟨S100000x128, .f32⟩
  | .hbm, ⟨10, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KernelPayload.lean ====
import proofs.«109696_g70342974374496_cont_9to1c4b_293_21_alg».proof.Proof.Gen.KernelIdeal.Skeleton
import proofs.«109696_g70342974374496_cont_9to1c4b_293_21_alg».proof.Proof.LibPlainDot
import Idealize.ShloMosaic.Lib.Pipeline.Value
import Idealize.ShloMosaic.Lib.ValueIdx
import Idealize.ShloMosaic.Lib.ValueLayout

/-!
  What the kernel's body stores, entry by entry. The body takes 5000 rows of x, the resident matrix (the transposed
  weights, 128 by 128) and the bias as a single row; it multiplies the rows by the matrix into a zero accumulator, adds
  the bias row broadcast down the 5000 rows, and takes the maximum with a broadcast zero. The change of float format on
  the rows and the two shape casts between equal shapes do nothing at the extended reals. So entry (p, q) of what is
  stored is max(∑ₖ rows(p, k) · matrix(k, q) + bias(0, q), 0).
-/

noncomputable section

open scoped BigOperators

namespace Cert.KernelIdeal.Payload

open Cert.KernelIdeal Cert.KernelIdeal.Gen Idealize.ShloMosaic Idealize.ShloMosaic.ValueIdx

/-- Entry (p, q) of the stored block. -/
theorem pay_apply (rows : Vec Ideal S5000x128 .f32) (mat : Vec Ideal S128x128 .bf16) (bias : Vec Ideal S1x128 .f32)
    (p : Fin 5000) (q : Fin 128) :
    k0_pay1 (F := Ideal) rows mat bias (ix2 p q)
      = max ((∑ k : Fin 128, rows (ix2 p k) * mat (ix2 k q)) + bias (ix2 (0 : Fin 1) q)) (Ideal.ofBits .f32 0x00000000#32) := by
  unfold k0_pay1
  rw [maximumf_apply, addf_apply, broadcast_apply, shapeCast_self, shapeCast_self,
    broadcastTo_1b_ab_apply bias broadcasts_S1x128_S5000x128 p q]
  have hprod : matmul (φ₁ := .bf16) (φ₂ := .bf16) dot_S5000x128_S128x128_S5000x128_1_0_0_1_n_n none (truncf .bf16 rows bitsLt_bf16_f32) mat
      (constant (F := Ideal) S5000x128 .f32 0x00000000#32) (ix2 p q)
        = ∑ k : Fin 128, (truncf .bf16 rows bitsLt_bf16_f32 : FVec Ideal S5000x128 .bf16) (ix2 p k) * mat (ix2 k q) :=
    Cert.Lib.PlainDot.matmul_zero_apply (φ₁ := .bf16) (φ₂ := .bf16) dot_S5000x128_S128x128_S5000x128_1_0_0_1_n_n rfl rfl rfl rfl rfl rfl none
      (truncf .bf16 rows bitsLt_bf16_f32) mat p q
  rw [hprod]
  rfl

end Cert.KernelIdeal.Payload

end
-- ==== Proof.KernelHost.lean ====
import proofs.«109696_g70342974374496_cont_9to1c4b_293_21_alg».proof.Proof.Gen.KernelIdeal.Frame
import Idealize.ShloMosaic.Lib.StableHlo.Run
import Idealize.ShloMosaic.Lib.ValueLayout
import Idealize.ShloMosaic.Lib.ValueIdx

/-!
  What the kernel's two resident operands hold when the grid starts. Before the call the program transposes W and
  changes its float format, and reshapes the bias to a single row. So the resident matrix at (k, q) is W(q, k) — at the
  extended reals the format change does nothing — and the bias row at (0, q) is b(q).
-/

noncomputable section

namespace Cert.KernelIdeal.HostPrefix

open Cert.KernelIdeal Cert.KernelIdeal.Gen Idealize.ShloMosaic Idealize.ShloMosaic.TcCoe Idealize.SL.Sem
open Idealize.ShloMosaic.ValueIdx

section AnyValues
variable {F : FTy → Type} [FloatOps F]
variable (m : (ℓ : Loc nD τ sig) → Buf (Elt F) ℓ)

/-- The resident matrix is W transposed, in the narrower format. -/
theorem matrix_eq (c : Dev nD) : (V m c main_v1 : S128x128.Idx → Elt F .bf16)
    = truncf .bf16 (transpose S128x128 [1, 0] (m ((c : Thread nD τ).loc main_arg1)) transposes_S128x128_S128x128_1_0) bitsLt_bf16_f32 := by
  dsimp only [Gen.V, Gen.hostOps0]
  after_results

/-- The bias row is b reshaped to one row. -/
theorem biasRow_eq (c : Dev nD) : (V m c main_v2 : S1x128.Idx → Elt F .f32)
    = shapeCast S1x128 (m ((c : Thread nD τ).loc main_arg2)) shapeCasts_S128_S1x128 := by
  dsimp only [Gen.V, Gen.hostOps0]
  after_results
  rfl

end AnyValues

variable (m : (ℓ : Loc nD τ sig) → Buf (Elt Ideal) ℓ)

/-- The resident matrix at (k, q) is W(q, k). -/
theorem matrix_apply (c : Dev nD) (k q : Fin 128) :
    (V m c main_v1 : S128x128.Idx → EReal) (ix2 k q) = m ((c : Thread nD τ).loc main_arg1) (ix2 q k) := by
  rw [matrix_eq]
  exact transpose_ix2_apply (m ((c : Thread nD τ).loc main_arg1)) transposes_S128x128_S128x128_1_0 k q

/-- The bias row at (0, q) is b(q). -/
theorem biasRow_apply (c : Dev nD) (q : Fin 128) :
    (V m c main_v2 : S1x128.Idx → EReal) (ix2 (0 : Fin 1) q) = m ((c : Thread nD τ).loc main_arg2) (ix1 q) := by
  rw [biasRow_eq]
  exact shapeCast_a_1a_apply (m ((c : Thread nD τ).loc main_arg2)) shapeCasts_S128_S1x128 0 q

end Cert.KernelIdeal.HostPrefix

end
-- ==== Proof.Dense.lean ====
import Idealize.ShloMosaic.PureOps.Ideal
import Idealize.ShloMosaic.Lib.ValueIdx

/-!
  The function both programs compute: a dense layer with a rectified output. For a feature matrix x of 100000 rows and
  128 columns, a weight matrix W of 128 output rows by 128 input columns and a bias b of 128 entries, the entry (r, q) of
  the result is max(∑ₖ x(r, k) · W(q, k) + b(q), 0): row r of x against row q of W, that is x · Wᵀ, the bias added along
  the columns, negatives cut to zero. The zero is kept as the word both programs print for it, so it is never evaluated.
-/

noncomputable section

open scoped BigOperators

namespace Cert.Dense

open Idealize.ShloMosaic Idealize.ShloMosaic.ValueIdx

/-- max(x · Wᵀ + b, 0), entry by entry over the extended reals. -/
def reluAffine (x : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun j => max ((∑ k : Fin 128, x (ix2 (j 0) k) * W (ix2 (j 1) k)) + b (ix1 (j 1))) (Ideal.ofBits .f32 0x00000000#32)

/-- The same entry named by its row and column. -/
theorem reluAffine_ix2 (x : (⟨2, ![100000, 128]⟩ : Shape).Idx → EReal) (W : (⟨2, ![128, 128]⟩ : Shape).Idx → EReal)
    (b : (⟨1, ![128]⟩ : Shape).Idx → EReal) (r : Fin 100000) (q : Fin 128) :
    reluAffine x W b (ix2 r q)
      = max ((∑ k : Fin 128, x (ix2 r k) * W (ix2 q k)) + b (ix1 q)) (Ideal.ofBits .f32 0x00000000#32) := rfl

end Cert.Dense

end
-- ==== Proof.KernelValue.lean ====
import proofs.«109696_g70342974374496_cont_9to1c4b_293_21_alg».proof.Proof.Gen.KernelIdeal.Value
import proofs.«109696_g70342974374496_cont_9to1c4b_293_21_alg».proof.Proof.KernelPayload
import proofs.«109696_g70342974374496_cont_9to1c4b_293_21_alg».proof.Proof.KernelHost
import proofs.«109696_g70342974374496_cont_9to1c4b_293_21_alg».proof.Proof.Dense
import Idealize.ShloMosaic.Lib.Pipeline.Value
import Idealize.ShloMosaic.Lib.Tactic

/-!
  The kernel's result array. The grid has 5 × 4 points; point (i, j) is given block i of x (20000 rows), takes from it
  the 5000 rows starting at row 5000·j, and writes block 4·i + j of the result (5000 rows). Numbering the points in
  row-major order, point t writes result rows 5000·t … 5000·t + 4999 and reads exactly those rows of x: row
  20000·i + 5000·j + p of x is row 5000·(4·i + j) + p. The resident matrix and bias row are the same at every point.
  So each point writes the dense layer's function of the three arguments, restricted to its block, and the twenty
  blocks tile the result.
-/

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

theorem hz : (![0, 0] : Fin 2 → Nat) = fun _ => 0 := funext fun a => by fin_cases a <;> rfl

section AnyValues
variable {F : FTy → Type} [FloatOps F]

/-- What the body leaves in the output's staging buffer: its one store covers the buffer, and what it stores is the
    body's arithmetic on the rows it loads from the x block at the point's row offset, the whole resident matrix and
    the whole bias row. -/
theorem out_eq (c : Dev nD) (i : grid0.Coords) (arg2 : Memref sig .tc .vmem S20000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S5000x128 .f32) (harg5 : arg5.IsWhole)
    (x0 : Vec F S20000x128 .f32) (x1 : Vec F S128x128 .bf16) (x2 : Vec F S1x128 .f32) :
    out0_A_3 c i arg2 harg2 arg3 harg3 arg4 harg4 arg5 harg5 x0 x1 x2
      = k0_pay1 (View.ld x0 (Rect.unit (s := S20000x128) (k0_off1 i) S5000x128.size (k0_off1_inb i))) x1 x2 := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero hz]
  simp only [View.readAt_eq_ld, harg2.read_unread, harg3.read_unread, harg4.read_unread,
    View.ld_unit_zero (S := S128x128) hz, View.ld_unit_zero (S := S1x128) hz]

end AnyValues

/-- Where the windows' blocks sit at point t, decided over the twenty points: the x block's first row plus the body's
    row offset is the output block's first row; the output block is block t; every other block index is zero. -/
theorem idx_facts : ∀ t : Fin cfg0.N,
    win0_0.index t (0 : Fin 2) * 20000 + k0_off1 (grid0.coords t) (0 : Fin 2) = win0_3.index t (0 : Fin 2) * 5000
    ∧ win0_3.index t (0 : Fin 2) = t.val
    ∧ win0_0.index t (1 : Fin 2) = 0 ∧ k0_off1 (grid0.coords t) (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row p of point t's blocks is row 5000·t + p of the arrays. -/
theorem row_lt (t : Fin cfg0.N) (p : Fin 5000) : t.val * 5000 + p.val < 100000 := by
  have ht : t.val < cfg0.N := t.isLt
  have hN : cfg0.N = 20 := N_0
  have hp : p.val < 5000 := p.isLt
  omega

abbrev row (t : Fin cfg0.N) (p : Fin 5000) : Fin 100000 := ⟨t.val * 5000 + p.val, row_lt t p⟩

variable (m : (ℓ : Loc nD τ sig) → Buf (Elt Ideal) ℓ) (ρ : Dev nD → PrngReg)

/-- The dense layer's function of the three arguments as launched. -/
abbrev result (c : Dev nD) : S100000x128.Idx → EReal :=
  Cert.Dense.reluAffine (m ((c : Thread nD τ).loc main_arg0)) (m ((c : Thread nD τ).loc main_arg1)) (m ((c : Thread nD τ).loc main_arg2))

/-- Entry (p, q) of the output block at point t is entry (5000·t + p, q) of the result array. -/
theorem emb_out (t : Fin cfg0.N) (p : Fin 5000) (q : Fin 128) :
    ((cfg0.win 3).blk t).view.emb (ix2 p q) = ix2 (row t p) q := by
  obtain ⟨-, e1, -, -, e4, -⟩ := idx_facts t
  funext a; apply Fin.ext
  match a with
  | ⟨0, _⟩ => show win0_3.index t (0 : Fin 2) * 5000 + 1 * p.val = t.val * 5000 + p.val; rw [e1]; omega
  | ⟨1, _⟩ => show win0_3.index t (1 : Fin 2) * 128 + 1 * q.val = q.val; rw [e4]; omega

/-- The rows the body loads at point t: row p, column k is x(5000·t + p, k). -/
theorem rows_apply (c : Dev nD) (t : Fin cfg0.N) (p : Fin 5000) (k : Fin 128) :
    View.ld (iblk m c 0 t) (Rect.unit (s := S20000x128) (k0_off1 (grid0.coords t)) S5000x128.size (k0_off1_inb (grid0.coords t))) (ix2 p k)
      = m ((c : Thread nD τ).loc main_arg0) (ix2 (row t p) k) := by
  obtain ⟨e0, e1, e2, e3, -⟩ := idx_facts t
  show V m c main_arg0 (((cfg0.win 0).blk t).view.emb ((Rect.unit (s := S20000x128) (k0_off1 (grid0.coords t)) S5000x128.size (k0_off1_inb (grid0.coords t))).idx (ix2 p k))) = _
  refine (congrFun (V_main_arg0 m c) _).trans (congrArg _ (funext fun a => Fin.ext ?_))
  match a with
  | ⟨0, _⟩ =>
    show win0_0.index t (0 : Fin 2) * 20000 + 1 * (k0_off1 (grid0.coords t) (0 : Fin 2) + 1 * p.val) = t.val * 5000 + p.val
    omega
  | ⟨1, _⟩ =>
    show win0_0.index t (1 : Fin 2) * 128 + 1 * (k0_off1 (grid0.coords t) (1 : Fin 2) + 1 * k.val) = k.val
    omega

/-- The resident matrix at point t, entry (k, q), is W(q, k). -/
theorem matrix_apply (c : Dev nD) (t : Fin cfg0.N) (k q : Fin 128) :
    (iblk m c 1 t : S128x128.Idx → EReal) (ix2 k q) = m ((c : Thread nD τ).loc main_arg1) (ix2 q k) := by
  obtain ⟨-, -, -, -, -, e5, e6, -⟩ := idx_facts t
  show V m c main_v1 (((cfg0.win 1).blk t).view.emb (ix2 k q)) = _
  refine (congrArg (V m c main_v1) (funext fun a => Fin.ext ?_)).trans (HostPrefix.matrix_apply m c k q)
  match a with
  | ⟨0, _⟩ => show win0_1.index t (0 : Fin 2) * 128 + 1 * k.val = k.val; omega
  | ⟨1, _⟩ => show win0_1.index t (1 : Fin 2) * 128 + 1 * q.val = q.val; omega

/-- The bias row at point t, entry (0, q), is b(q). -/
theorem biasRow_apply (c : Dev nD) (t : Fin cfg0.N) (q : Fin 128) :
    (iblk m c 2 t : S1x128.Idx → EReal) (ix2 (0 : Fin 1) q) = m ((c : Thread nD τ).loc main_arg2) (ix1 q) := by
  obtain ⟨-, -, -, -, -, -, -, e7, e8⟩ := idx_facts t
  show V m c main_v2 (((cfg0.win 2).blk t).view.emb (ix2 (0 : Fin 1) q)) = _
  refine (congrArg (V m c main_v2) (funext fun a => Fin.ext ?_)).trans (HostPrefix.biasRow_apply m c q)
  match a with
  | ⟨0, _⟩ => show win0_2.index t (0 : Fin 2) * 1 + 1 * 0 = 0; omega
  | ⟨1, _⟩ => show win0_2.index t (1 : Fin 2) * 128 + 1 * q.val = q.val; omega

/-- What point t writes back is block t of the result. -/
theorem flushed_eq (c : Dev nD) (t : Fin cfg0.N) :
    (dats m 0 c).flushed 3 t = ((cfg0.win 3).blk t).view.read (Elt Ideal) (result m c) := by
  rw [Value.flushed3_A, out_eq]
  funext j
  obtain ⟨p, q, rfl⟩ : ∃ (p : Fin 5000) (q : Fin 128), j = ix2 p q := ⟨j 0, j 1, eq_ix2 j⟩
  show k0_pay1 (F := Ideal) (View.ld (iblk m c 0 t) (Rect.unit (s := S20000x128) (k0_off1 (grid0.coords t)) S5000x128.size (k0_off1_inb (grid0.coords t))))
      (iblk m c 1 t) (iblk m c 2 t) (ix2 p q) = result m c (((cfg0.win 3).blk t).view.emb (ix2 p q))
  rw [emb_out]
  refine (Payload.pay_apply _ _ _ p q).trans ?_
  refine Eq.trans ?_ (Cert.Dense.reluAffine_ix2 _ _ _ (row t p) q).symm
  rw [biasRow_apply m c t q,
    Finset.sum_congr rfl (fun k _ => congrArg₂ (fun a b : EReal => a * b) (rows_apply m c t p k) (matrix_apply m c t k q))]

/-- An index of the result array lies in point t's block exactly when each coordinate lies in the block's range. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v3).slice (win0_3.rect t)).set ↔ _
  rw [View.set_slice_whole, Rect.mem_set_unit]
  exact Iff.rfl

/-- The twenty blocks tile the result: row r lies in the block of point r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, e1, -, -, e4, -⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e1]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e4]
    omega

/-- So after the run the result array holds the dense layer's function of the three arguments. -/
theorem final (c : Dev nD) : (dats m 0 c).arrAt 3 cfg0.N = result m c :=
  (dats m 0 c).arrAt_eq_of_cover 3 (result m c) (fun t _ => flushed_eq m c t) cover

/-- The kernel's run, read: the result array at the dense layer's function, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefValue.lean ====
import proofs.«109696_g70342974374496_cont_9to1c4b_293_21_alg».proof.Proof.Gen.ReferenceIdeal.Read
import proofs.«109696_g70342974374496_cont_9to1c4b_293_21_alg».proof.Proof.Dense

/-!
  The reference, read entry by entry. It transposes W, contracts x's columns against the transposed matrix's rows,
  broadcasts the bias along the rows, adds, and takes the maximum with a broadcast zero. At entry (r, q) the contraction
  reads x(r, k) and the transposed matrix at (k, q), which is W(q, k); the two broadcasts read b(q); the zero is the
  constant's word. So the whole result is the dense layer's function of the three arguments.
-/

noncomputable section

open scoped BigOperators

namespace Cert.ReferenceIdeal.RefValue

open Cert.ReferenceIdeal Cert.ReferenceIdeal.Read Idealize.ShloMosaic Idealize.ShloMosaic.ValueIdx

/-- The left operand of the contraction at (r, ·) and step k is x(r, k). -/
theorem lidx_eq (i : S100000x128.Idx) (k : Fin 128) : lidx_main_v1 i k = ix2 (i 0) k :=
  funext fun a => by match a with | ⟨0, _⟩ => rfl | ⟨1, _⟩ => rfl

/-- The transposed matrix at (k, q) is W at (q, k). -/
theorem tidx_eq (i : S100000x128.Idx) (k : Fin 128) : idx_main_v0 (ridx_main_v1 i k) = ix2 (i 1) k :=
  funext fun a => by match a with | ⟨0, _⟩ => rfl | ⟨1, _⟩ => rfl

/-- The bias broadcast to a row and then down the rows reads b at the column. -/
theorem bidx_eq (i : S100000x128.Idx) : idx_main_v2 (idx_main_v3 i) = ix1 (i 1) :=
  funext fun a => by match a with | ⟨0, _⟩ => rfl

/-- The reference's result is max(x · Wᵀ + b, 0). -/
theorem result_eq (x : (⟨S100000x128, .f32⟩ : BufTy).Contents (Elt Ideal)) (W : (⟨S128x128, .f32⟩ : BufTy).Contents (Elt Ideal))
    (b : (⟨S128, .f32⟩ : BufTy).Contents (Elt Ideal)) :
    val_main_v6 (F := Ideal) x W b = Cert.Dense.reluAffine x W b := by
  funext i
  rw [val_main_v6_apply, val_main_v4_apply, val_main_v1_apply, val_main_v3_apply, val_main_v2_apply, val_main_v5_apply,
    val_main_cst_apply]
  simp only [val_main_v0_apply, lidx_eq, tidx_eq, bidx_eq, Ideal.maximumf_def, Ideal.addf_def, Ideal.ofBits_def]
  rfl

end Cert.ReferenceIdeal.RefValue

end
-- ==== Proof.lean ====
/-
  A dense layer with a rectified output, relu(x · Wᵀ + b), for x of 100000 rows by 128 columns, W of 128 by 128 and b of
  128 entries: entry (r, q) of the result is max(∑ₖ x(r, k) · W(q, k) + b(q), 0).

  The kernel transposes W once before its grid, keeps the transposed matrix and the bias (as a single row) resident,
  and walks a grid of 5 × 4 points: point (i, j) holds block i of x (20000 rows), multiplies the 5000 rows starting
  at row 5000·j by the resident matrix, adds the bias row, cuts negatives to zero, and writes block 4·i + j of the
  result. Row 20000·i + 5000·j + p of x is row 5000·(4·i + j) + p, so each point writes the layer's function on its own
  5000 rows, and the twenty blocks tile the result. The reference does the same arithmetic on whole arrays. Over the
  extended reals a change of float format is the identity and a matrix product into a zero accumulator is the plain sum
  of products, so the two results are the same function of the arguments; no law that needs finite inputs is used.

  The three frames are the programs' runs with the result dropped; the idealized kernel is the kernel's own text read
  over the extended reals, so there is nothing to preserve.
-/
import proofs.«109696_g70342974374496_cont_9to1c4b_293_21_alg».proof.Defs
import proofs.«109696_g70342974374496_cont_9to1c4b_293_21_alg».proof.Proof.Gen.Kernel
import proofs.«109696_g70342974374496_cont_9to1c4b_293_21_alg».proof.Proof.Gen.Kernel.Skeleton
import proofs.«109696_g70342974374496_cont_9to1c4b_293_21_alg».proof.Proof.Gen.Kernel.Launch
import proofs.«109696_g70342974374496_cont_9to1c4b_293_21_alg».proof.Proof.Gen.Kernel.Points
import proofs.«109696_g70342974374496_cont_9to1c4b_293_21_alg».proof.Proof.Gen.Kernel.Frame
import proofs.«109696_g70342974374496_cont_9to1c4b_293_21_alg».proof.Proof.Gen.KernelIdeal
import proofs.«109696_g70342974374496_cont_9to1c4b_293_21_alg».proof.Proof.Gen.KernelIdeal.Skeleton
import proofs.«109696_g70342974374496_cont_9to1c4b_293_21_alg».proof.Proof.Gen.KernelIdeal.Launch
import proofs.«109696_g70342974374496_cont_9to1c4b_293_21_alg».proof.Proof.Gen.KernelIdeal.Points
import proofs.«109696_g70342974374496_cont_9to1c4b_293_21_alg».proof.Proof.Gen.KernelIdeal.Frame
import proofs.«109696_g70342974374496_cont_9to1c4b_293_21_alg».proof.Proof.Gen.ReferenceIdeal
import proofs.«109696_g70342974374496_cont_9to1c4b_293_21_alg».proof.Proof.Gen.Pre_finite_inputs
import proofs.«109696_g70342974374496_cont_9to1c4b_293_21_alg».proof.Proof.Gen.KernelIdeal.Value
import proofs.«109696_g70342974374496_cont_9to1c4b_293_21_alg».proof.Proof.Gen.ReferenceIdeal.Run
import proofs.«109696_g70342974374496_cont_9to1c4b_293_21_alg».proof.Proof.Gen.ReferenceIdeal.Read
import proofs.«109696_g70342974374496_cont_9to1c4b_293_21_alg».proof.Proof.KernelValue
import proofs.«109696_g70342974374496_cont_9to1c4b_293_21_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the result array at max(x · Wᵀ + b, 0). -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
